-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg1 : IVec S640000 32) (main_v13 : IVec S_ 1) (main_v15 : IVec S640000 1) (main_c_5 : IVec S_ 32) : IVec S_ 1 :=
  let main_v16 : IVec S640000 32 := broadcastInDim S640000 ![] bcast_S_S640000 main_c_5
  let main_v17 : IVec S640000 1 := cmpi .slt main_arg1 main_v16
  let main_v18 : IVec S640000 1 := andi main_v15 main_v17
  let main_c_6 : IVec S_ 1 := constantI S_ 1 1#1
  let main_v19 : IVec S_ 1 := (fun x v => Host.reduce IntOp.andi x v reducesTo_S640000_S_d0 h_S_) main_v18 main_c_6
  let main_v20 : IVec S_ 1 := andi main_v13 main_v19
  main_v20

def fn {F : FTy → Type} [FloatOps F] (main_arg0 : FVec F S10000x128 .f32) (main_arg1 : IVec S640000 32) (main_arg2 : IVec S640000 32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S640000 32 := broadcastInDim S640000 ![] bcast_S_S640000 main_c_4
  let main_v15 : IVec S640000 1 := cmpi .sge main_arg1 main_v14
  let main_c_5 : IVec S_ 32 := constantI S_ 32 10000#32
  fn_part1 (F := F) main_arg1 main_v13 main_v15 main_c_5
-- ==== Kernel.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S640000x1 : Shape := ⟨2, ![640000, 1]⟩
abbrev S640x1 : Shape := ⟨2, ![640, 1]⟩
abbrev S1x10000 : Shape := ⟨2, ![1, 10000]⟩
abbrev S640x10000 : Shape := ⟨2, ![640, 10000]⟩
abbrev S640x128 : Shape := ⟨2, ![640, 128]⟩
abbrev S1x128 : Shape := ⟨2, ![1, 128]⟩

abbrev nBuf : Space → Nat
  | .hbm => 9
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S640000x1, .i32⟩
  | .hbm, ⟨7, _⟩ => ⟨S640000x1, .i32⟩
  | .hbm, ⟨8, _⟩ => ⟨S10000x128, .f32⟩
  | .local _ .vmem, ⟨0, _⟩ => ⟨S10000x128, .f32⟩
  | .local _ .vmem, ⟨1, _⟩ => ⟨S640x1, .i32⟩
  | .local _ .vmem, ⟨2, _⟩ => ⟨S640x1, .i32⟩
  | .local _ .vmem, ⟨3, _⟩ => ⟨S640x1, .i32⟩
  | .local _ .vmem, ⟨4, _⟩ => ⟨S640x1, .i32⟩
  | .local _ .vmem, ⟨5, _⟩ => ⟨S128x128, .f32⟩
  | .local _ .vmem, ⟨6, _⟩ => ⟨S128, .f32⟩
  | .local _ .vmem, ⟨7, _⟩ => ⟨S10000x128, .f32⟩
  | .local _ .vmem, ⟨8, _⟩ => ⟨S10000x128, .f32⟩
  | .local _ .vmem, ⟨9, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![1000], ![false]⟩

def k0_cond2 (i : grid0.Coords) : BitVec 1 :=
  let arg0 : BitVec 32 := BitVec.ofNat 32 (i 0).val
  let c999_i32 : BitVec 32 := 999#32
  let v29 : BitVec 1 := Scalar.cmpi .eq arg0 c999_i32
  let v30 : BitVec 32 := Scalar.extui v29
  let c0_i32_11 : BitVec 32 := 0#32
  let v31 : BitVec 1 := Scalar.cmpi .ne v30 c0_i32_11
  v31

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S640x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  transposes_S128x128_S128x128_1_0 : S128x128.Transposes [1, 0] S128x128
  shapeCasts_S640000_S640000x1 : S640000.ShapeCasts S640000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S640x1_S640x1_0_0 : ∀ a, (![0, 0] : Fin 2 → Nat) a + S640x1.size a ≤ S640x1.size a
  h_S640x1 : 0 < S640x1.numel
  shapeCasts_S640x1_S640x1 : S640x1.ShapeCasts S640x1
  iota_S1x10000_d1_w32 : S1x10000.Iotas .tc 32 [1]
  broadcasts_S640x1_S640x10000 : S640x1.Broadcasts S640x10000
  broadcasts_S1x10000_S640x10000 : S1x10000.Broadcasts S640x10000
  natLt_1_32 : 1 < 32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  dot_S640x10000_S10000x128_S640x128_1_0_0_1_n_n_wf : DotDims.WF S640x10000 S10000x128 S640x128 [1] [0] [0] [1] [] []
  dot_S640x10000_S640x128_S10000x128_0_0_1_1_n_n_wf : DotDims.WF S640x10000 S640x128 S10000x128 [0] [0] [1] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x1.size a ≤ S640000x1.size a
  hwx0_1 : ∀ i : grid0.Coords, EltTy.bits .i32 = 32 ∨ (Rect.block (s := S640000x1) S640x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S640x1.size a ≤ S640000x1.size a
  hwx0_2 : ∀ i : grid0.Coords, EltTy.bits .i32 = 32 ∨ (Rect.block (s := S640000x1) S640x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S10000x128.size a
  hwx0_5 : ∀ i : grid0.Coords, EltTy.bits .f32 = 32 ∨ (Rect.block (s := S10000x128) S10000x128.size (cc0_transform_5 i) (hinb0_5 i)).WholeWords (EltTy.packing .f32)

variable [Facts₀]

def dot_S640x10000_S10000x128_S640x128_1_0_0_1_n_n : DotDims S640x10000 S10000x128 S640x128 where
  lhsContracting := [1]
  rhsContracting := [0]
  lhsNonContracting := [0]
  rhsNonContracting := [1]
  lhsBatch := []
  rhsBatch := []
  wf := dot_S640x10000_S10000x128_S640x128_1_0_0_1_n_n_wf
def dot_S640x10000_S640x128_S10000x128_0_0_1_1_n_n : DotDims S640x10000 S640x128 S10000x128 where
  lhsContracting := [0]
  rhsContracting := [0]
  lhsNonContracting := [1]
  rhsNonContracting := [1]
  lhsBatch := []
  rhsBatch := []
  wf := dot_S640x10000_S640x128_S10000x128_0_0_1_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S640x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S640x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S10000x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S10000x128, .f32⟩
  | .hbm, ⟨16, _⟩ => ⟨S640000x1, .i32⟩
  | .hbm, ⟨17, _⟩ => ⟨S10000x128, .f32⟩
  | .hbm, ⟨18, _⟩ => ⟨S10000x128, .f32⟩
  | .hbm, ⟨19, _⟩ => ⟨S128x128, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.PreRange.lean ====
/-
  What the precondition says of the source words: each, read as a signed integer, lies in `[0, 10000)`.

  The precondition is a conjunction ending in "all of `0 ≤ src` and `src < 10000`" (a signed comparison with each
  constant, joined, then an all-reduction); only that last conjunct is opened here.
-/
import proofs.«402181_j2834678415936_2_alg».proof.Pre_finite_inputs
import proofs.«402181_j2834678415936_2_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Range

open Cert.Pre_finite_inputs Idealize.ShloMosaic Idealize.ShloMosaic.ValueIdx

variable [Cert.Pre_finite_inputs.Facts]

/-- Under the precondition every source word, read signed, is a row number of the table. -/
theorem src_in_range (x0 : FVec Ideal S10000x128 .f32) (x1 x2 : IVec S640000 32) (x3 : FVec Ideal S128x128 .f32) (x4 : FVec Ideal S128 .f32)
    (h : Cert.Pre_finite_inputs.fn (F := Ideal) x0 x1 x2 x3 x4 = fun _ => 1#1) :
    ∀ e : Fin 640000, 0 ≤ (x1 (ix1 e)).toInt ∧ (x1 (ix1 e)).toInt < 10000 := by
  intro e
  -- the precondition at the scalar shape's one index, its operations spelled out
  have h0 := congrFun h ix0
  dsimp only [fn, fn_part1] at h0
  -- a conjunction of bits is 1 only if both are: keep the last conjunct, the all-reduction over the source words
  have h1 := (IntOp.andi_eq_one.1 h0).2
  -- an all-reduction that is 1 met a 1 at every element
  haveI : Subsingleton S_.Idx := ⟨fun a b => funext fun d => d.elim0⟩
  have h2 := Host.reduce_andi_all _ _ _ _ ix0 h1 (ix1 e)
  -- at element e: (0 ≤ word, signed) and (word < 10000, signed), each constant broadcast from a scalar
  obtain ⟨hge, hlt⟩ := IntOp.andi_eq_one.1 h2
  have hge' : IntOp.cmpi .sge (x1 (ix1 e)) 0#32 = 1#1 := hge
  have hlt' : IntOp.cmpi .slt (x1 (ix1 e)) 10000#32 = 1#1 := hlt
  rw [IntOp.cmpi_sge] at hge'
  rw [IntOp.cmpi_slt] at hlt'
  have z0 : (0#32 : BitVec 32).toInt = 0 := by decide
  have z1 : (10000#32 : BitVec 32).toInt = 10000 := by decide
  rw [z0] at hge'
  rw [z1] at hlt'
  exact ⟨hge', hlt'⟩

end Cert.Pre_finite_inputs.Range

end
-- ==== Proof.LibGather.lean ====
/-
  General lemma: the row gather (`table[idx]` over the rows of a rank-2 table, the row numbers an [M, 1] column), read
  at an index. Result row `e` is the table's row `min (max idx 0) (N - 1)`: the `e`-th start index read as a signed
  integer and clamped into the table.
-/
import Idealize.ShloMosaic.PureOps.Ideal
import Idealize.ShloMosaic.Lib.ValueIdx
import Idealize.ShloMosaic.Lib.StableHlo.Predicate

noncomputable section

namespace Cert.LibGather

open Idealize.ShloMosaic Idealize.ShloMosaic.ValueIdx Idealize.ShloMosaic.StableHlo.Predicate

/-- The dimension numbers of a row gather: table [N, C], row numbers as an [M, 1] column, result [M, C]. -/
def rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- A row gather at result row `e`, column `l`: the table's row at the `e`-th start index, read signed and clamped
    into `[0, N - 1]`, at column `l`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (l : Fin C) :
    Host.gather (rowGatherDims N M C wf) x idx (ix2 e l)
      = x (ix2 ⟨min (idx (ixP e)).toInt.toNat (N - 1), by omega⟩ l) := by
  unfold Host.gather
  congr 1
  funext a
  refine Fin.ext ?_
  have h10 : ¬ ((1 : Fin 2) = 0) := by decide
  match a with
  | ⟨0, _⟩ =>
    -- axis 0 (the rows): collapsed and named by the start index map, so the coordinate is the clamped start alone
    show (rowGatherDims N M C wf).start (ix2 e l) idx 0 + (rowGatherDims N M C wf).batchCoord (ix2 e l) 0
        + (rowGatherDims N M C wf).offCoord (ix2 e l) 0 = min (idx (ixP e)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    -- the start index is read at row e of the column: the result's batch axis 0 feeds the column's axis 0
    have hsi : (rowGatherDims N M C wf).siIdx (ix2 e l) ⟨List.idxOf (0 : Fin 2) (rowGatherDims N M C wf).startIndexMap,
        List.idxOf_lt_length_iff.2 (List.mem_singleton.mpr rfl)⟩ = ixP e := by
      funext b; refine Fin.ext ?_
      match b with
      | ⟨0, _⟩ => rfl
      | ⟨1, _⟩ => rfl
    rw [hsi]
    rfl
  | ⟨1, _⟩ =>
    -- axis 1 (the columns): the one kept axis; not start-indexed, so start 0, and the offset coordinate is l
    show (rowGatherDims N M C wf).start (ix2 e l) idx 1 + (rowGatherDims N M C wf).batchCoord (ix2 e l) 1
        + (rowGatherDims N M C wf).offCoord (ix2 e l) 1 = l.val
    have h1s : (1 : Fin 2) ∉ (rowGatherDims N M C wf).startIndexMap := fun h => h10 (List.mem_singleton.mp h)
    have h1c : (1 : Fin 2) ∉ (rowGatherDims N M C wf).collapsedSliceDims := fun h => h10 (List.mem_singleton.mp h)
    have hs : (rowGatherDims N M C wf).start (ix2 e l) idx 1 = 0 := by
      unfold GatherDims.start
      rw [dif_neg h1s]
    rw [hs, GatherDims.batchCoord_eq_zero _ _ _ List.not_mem_nil]
    simp only [Nat.add_zero, Nat.zero_add]
    unfold GatherDims.offCoord
    rw [dif_pos ((GatherDims.mem_sKept _ _).mpr ⟨h1c, List.not_mem_nil⟩)]
    rfl

end Cert.LibGather

end
-- ==== Proof.LibSegment.lean ====
/-
  General lemmas: the host's segment sum (a float scatter-add whose scatter indices are an [M, 1] column of row
  numbers), read at an index on the extended reals.

  A segment sum into `N` rows adds update `e` to row `i` exactly when the `e`-th start index, read as a signed integer,
  is `i`; an index outside `[0, N)` matches no row, so its update is dropped.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.StableHlo.Predicate

noncomputable section

open scoped BigOperators

namespace Cert.LibSegment

open Idealize.ShloMosaic Idealize.ShloMosaic.ValueIdx Idealize.ShloMosaic.StableHlo.Predicate

/-- The dimension numbers of a segment sum of scalars: operand [N], segment ids as an [M, 1] column, updates [M]. -/
def segDims1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The dimension numbers of a segment sum of rows: operand [N, C], segment ids as an [M, 1] column, updates [M, C]. -/
def segDims2 (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-! ## Scalars: operand [N], updates [M]

The operand's one axis is the start-indexed axis and is inserted (no window axis goes to it), so update `e` lands at
row `start`, the `e`-th entry of the index column read signed. -/

/-- The window's start on the operand's axis for update `e`: entry `e` of the index column, read signed. -/
theorem start1_0 {N M w : Nat} (wf : ScatterDims.WF ⟨1, ![N]⟩ ⟨2, ![M, 1]⟩ ⟨1, ![M]⟩ [] [0] [0] 1)
    (idx : IVec ⟨2, ![M, 1]⟩ w) (e : Fin M) :
    (segDims1 N M wf).start (ix1 e) idx 0 = (idx (ixP e)).toInt := by
  unfold ScatterDims.start
  rw [dif_pos (show (0 : Fin 1) ∈ (segDims1 N M wf).scatterDimsToOperandDims from List.mem_singleton.mpr rfl)]
  congr 2
  funext b
  match b with
  | ⟨0, _⟩ => rfl
  | ⟨1, _⟩ => rfl

/-- The operand's axis is inserted, so the window coordinate on it is zero. -/
theorem window1_0 {N M : Nat} (wf : ScatterDims.WF ⟨1, ![N]⟩ ⟨2, ![M, 1]⟩ ⟨1, ![M]⟩ [] [0] [0] 1)
    (j : (⟨1, ![M]⟩ : Shape).Idx) :
    (segDims1 N M wf).window j 0 = 0 := by
  unfold ScatterDims.window
  have h : (0 : Fin 1) ∉ (segDims1 N M wf).sKept :=
    (by decide : (0 : Fin 1) ∉ (List.finRange 1).filter (· ∉ ([0] : List (Fin 1))))
  rw [dif_neg h]

/-- Where update `e` lands: at the row its start index names when that lies in `[0, N)`, nowhere otherwise. -/
theorem resultIdx1 {N M w : Nat} (wf : ScatterDims.WF ⟨1, ![N]⟩ ⟨2, ![M, 1]⟩ ⟨1, ![M]⟩ [] [0] [0] 1)
    (idx : IVec ⟨2, ![M, 1]⟩ w) (e : Fin M) :
    (segDims1 N M wf).resultIdx? (ix1 e) idx =
      if h : 0 ≤ (idx (ixP e)).toInt ∧ (idx (ixP e)).toInt < (N : ℤ) then
        some (ix1 ⟨(idx (ixP e)).toInt.toNat, by omega⟩) else none := by
  have s0 := start1_0 wf idx e
  have w0 := window1_0 wf (ix1 e)
  unfold ScatterDims.resultIdx?
  by_cases h : 0 ≤ (idx (ixP e)).toInt ∧ (idx (ixP e)).toInt < (N : ℤ)
  · have hall : ∀ a, 0 ≤ (segDims1 N M wf).start (ix1 e) idx a + (segDims1 N M wf).window (ix1 e) a ∧
        (segDims1 N M wf).start (ix1 e) idx a + (segDims1 N M wf).window (ix1 e) a
          < ((⟨1, ![N]⟩ : Shape).size a : ℤ) := by
      refine Fin.forall_fin_one.2 ?_
      show 0 ≤ (segDims1 N M wf).start (ix1 e) idx 0 + ((segDims1 N M wf).window (ix1 e) 0 : ℕ) ∧
          (segDims1 N M wf).start (ix1 e) idx 0 + ((segDims1 N M wf).window (ix1 e) 0 : ℕ) < (N : ℤ)
      rw [s0, w0]; omega
    rw [dif_pos h, dif_pos hall]
    congr 1
    funext a
    match a with
    | ⟨0, _⟩ =>
      refine Fin.ext ?_
      show ((segDims1 N M wf).start (ix1 e) idx 0 + ((segDims1 N M wf).window (ix1 e) 0 : ℕ)).toNat = _
      rw [s0, w0]; simp
  · rw [dif_neg h, dif_neg]
    intro hall
    apply h
    have h0 : 0 ≤ (segDims1 N M wf).start (ix1 e) idx 0 + ((segDims1 N M wf).window (ix1 e) 0 : ℕ) ∧
          (segDims1 N M wf).start (ix1 e) idx 0 + ((segDims1 N M wf).window (ix1 e) 0 : ℕ) < (N : ℤ) := hall 0
    rw [s0, w0] at h0
    omega

/-- Update `e` lands on row `i` exactly when its start index, read signed, is `i`. -/
theorem resultIdx1_eq_some_iff {N M w : Nat}
    (wf : ScatterDims.WF ⟨1, ![N]⟩ ⟨2, ![M, 1]⟩ ⟨1, ![M]⟩ [] [0] [0] 1)
    (idx : IVec ⟨2, ![M, 1]⟩ w) (e : Fin M) (i : Fin N) :
    (segDims1 N M wf).resultIdx? (ix1 e) idx = some (ix1 i) ↔ (idx (ixP e)).toInt = (i.val : ℤ) := by
  rw [resultIdx1]
  constructor
  · intro hEq
    by_cases h : 0 ≤ (idx (ixP e)).toInt ∧ (idx (ixP e)).toInt < (N : ℤ)
    · rw [dif_pos h] at hEq
      have hf := Option.some.inj hEq
      have h0 : (idx (ixP e)).toInt.toNat = i.val := congrArg Fin.val (congrFun hf 0)
      omega
    · rw [dif_neg h] at hEq
      exact absurd hEq (by simp)
  · intro ht
    have h : 0 ≤ (idx (ixP e)).toInt ∧ (idx (ixP e)).toInt < (N : ℤ) := by have := i.isLt; omega
    rw [dif_pos h]
    congr 2
    exact Fin.ext (by show (idx (ixP e)).toInt.toNat = i.val; omega)

/-- A segment sum of scalars at row `i`: the operand's entry plus the updates whose segment id is `i`. -/
theorem scatterAdd_seg1_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (i : Fin N) :
    Ideal.hostScatterAdd (segDims1 N M wf) x idx upd (ix1 i)
      = x (ix1 i) + ∑ e : Fin M, if (idx (ixP e)).toInt = (i.val : ℤ) then upd (ix1 e) else 0 := by
  unfold Ideal.hostScatterAdd
  congr 1
  -- the filtered sum as a sum of conditionals, re-indexed by the update's one coordinate
  rw [Finset.sum_filter, ← Equiv.sum_comp (idxEquiv1 (n := M)).symm]
  refine Finset.sum_congr rfl fun e _ => ?_
  show (if (segDims1 N M wf).resultIdx? (ix1 e) idx = some (ix1 i) then upd (ix1 e) else 0) = _
  simp only [resultIdx1_eq_some_iff]

/-! ## Rows: operand [N, C], updates [M, C]

Axis 0 of the operand is the start-indexed, inserted axis; axis 1 is the window axis, fed by the updates' axis 1. So
update `(e, c)` lands at row `start` (the `e`-th entry of the index column read signed), column `c`. -/

/-- The window's start on the row axis for update `(e, c)`: entry `e` of the index column, read signed. -/
theorem start2_0 {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (segDims2 N M C wf).start (ix2 e c) idx 0 = (idx (ixP e)).toInt := by
  unfold ScatterDims.start
  rw [dif_pos (show (0 : Fin 2) ∈ (segDims2 N M C wf).scatterDimsToOperandDims from List.mem_singleton.mpr rfl)]
  congr 2
  funext b
  match b with
  | ⟨0, _⟩ => rfl
  | ⟨1, _⟩ => rfl

/-- The column axis is not start-indexed: its window starts at zero. -/
theorem start2_1 {N M C w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (segDims2 N M C wf).start j idx 1 = 0 := by
  unfold ScatterDims.start
  have h : (1 : Fin 2) ∉ (segDims2 N M C wf).scatterDimsToOperandDims :=
    (by decide : (1 : Fin 2) ∉ ([0] : List (Fin 2)))
  rw [dif_neg h]

/-- The row axis is inserted, so the window coordinate on it is zero. -/
theorem window2_0 {N M C : Nat} (wf : ScatterDims.WF ⟨2, ![N, C]⟩ ⟨2, ![M, 1]⟩ ⟨2, ![M, C]⟩ [1] [0] [0] 1)
    (j : (⟨2, ![M, C]⟩ : Shape).Idx) :
    (segDims2 N M C wf).window j 0 = 0 := by
  unfold ScatterDims.window
  have h : (0 : Fin 2) ∉ (segDims2 N M C wf).sKept :=
    (by decide : (0 : Fin 2) ∉ (List.finRange 2).filter (· ∉ ([0] : List (Fin 2))))
  rw [dif_neg h]

/-- The window coordinate on the column axis is the update's own column. -/
theorem window2_1 {N M C : Nat} (wf : ScatterDims.WF ⟨2, ![N, C]⟩ ⟨2, ![M, 1]⟩ ⟨2, ![M, C]⟩ [1] [0] [0] 1)
    (e : Fin M) (c : Fin C) :
    (segDims2 N M C wf).window (ix2 e c) 1 = c.val := by
  unfold ScatterDims.window
  have h : (1 : Fin 2) ∈ (segDims2 N M C wf).sKept :=
    (by decide : (1 : Fin 2) ∈ (List.finRange 2).filter (· ∉ ([0] : List (Fin 2))))
  rw [dif_pos h]
  rfl

/-- Where update `(e, c)` lands: at the row its start index names, column `c`, when that row lies in `[0, N)`; nowhere
    otherwise. -/
theorem resultIdx2 {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (segDims2 N M C wf).resultIdx? (ix2 e c) idx =
      if h : 0 ≤ (idx (ixP e)).toInt ∧ (idx (ixP e)).toInt < (N : ℤ) then
        some (ix2 ⟨(idx (ixP e)).toInt.toNat, by omega⟩ c) else none := by
  have s0 := start2_0 wf idx e c
  have s1 := start2_1 wf idx (ix2 e c)
  have w0 := window2_0 wf (ix2 e c)
  have w1 := window2_1 wf e c
  unfold ScatterDims.resultIdx?
  by_cases h : 0 ≤ (idx (ixP e)).toInt ∧ (idx (ixP e)).toInt < (N : ℤ)
  · have hall : ∀ a, 0 ≤ (segDims2 N M C wf).start (ix2 e c) idx a + (segDims2 N M C wf).window (ix2 e c) a ∧
        (segDims2 N M C wf).start (ix2 e c) idx a + (segDims2 N M C wf).window (ix2 e c) a
          < ((⟨2, ![N, C]⟩ : Shape).size a : ℤ) := by
      refine Fin.forall_fin_two.2 ⟨?_, ?_⟩
      · show 0 ≤ (segDims2 N M C wf).start (ix2 e c) idx 0 + ((segDims2 N M C wf).window (ix2 e c) 0 : ℕ) ∧
          (segDims2 N M C wf).start (ix2 e c) idx 0 + ((segDims2 N M C wf).window (ix2 e c) 0 : ℕ) < (N : ℤ)
        rw [s0, w0]; omega
      · show 0 ≤ (segDims2 N M C wf).start (ix2 e c) idx 1 + ((segDims2 N M C wf).window (ix2 e c) 1 : ℕ) ∧
          (segDims2 N M C wf).start (ix2 e c) idx 1 + ((segDims2 N M C wf).window (ix2 e c) 1 : ℕ) < (C : ℤ)
        rw [s1, w1]; have := c.isLt; omega
    rw [dif_pos h, dif_pos hall]
    congr 1
    funext a
    match a with
    | ⟨0, _⟩ =>
      refine Fin.ext ?_
      show ((segDims2 N M C wf).start (ix2 e c) idx 0 + ((segDims2 N M C wf).window (ix2 e c) 0 : ℕ)).toNat = _
      rw [s0, w0]; simp
    | ⟨1, _⟩ =>
      refine Fin.ext ?_
      show ((segDims2 N M C wf).start (ix2 e c) idx 1 + ((segDims2 N M C wf).window (ix2 e c) 1 : ℕ)).toNat = c.val
      rw [s1, w1]; simp
  · rw [dif_neg h, dif_neg]
    intro hall
    apply h
    have h0 : 0 ≤ (segDims2 N M C wf).start (ix2 e c) idx 0 + ((segDims2 N M C wf).window (ix2 e c) 0 : ℕ) ∧
          (segDims2 N M C wf).start (ix2 e c) idx 0 + ((segDims2 N M C wf).window (ix2 e c) 0 : ℕ) < (N : ℤ) := hall 0
    rw [s0, w0] at h0
    omega

/-- Update `(e, c)` lands on `(i, l)` exactly when its start index, read signed, is `i` and its column is `l`. -/
theorem resultIdx2_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (i : Fin N) (l : Fin C) :
    (segDims2 N M C wf).resultIdx? (ix2 e c) idx = some (ix2 i l) ↔
      (idx (ixP e)).toInt = (i.val : ℤ) ∧ c = l := by
  rw [resultIdx2]
  constructor
  · intro hEq
    by_cases h : 0 ≤ (idx (ixP e)).toInt ∧ (idx (ixP e)).toInt < (N : ℤ)
    · rw [dif_pos h] at hEq
      have hf := Option.some.inj hEq
      have h0 : (idx (ixP e)).toInt.toNat = i.val := congrArg Fin.val (congrFun hf 0)
      have h1 : c = l := congrFun hf 1
      exact ⟨by omega, h1⟩
    · rw [dif_neg h] at hEq
      exact absurd hEq (by simp)
  · rintro ⟨ht, rfl⟩
    have h : 0 ≤ (idx (ixP e)).toInt ∧ (idx (ixP e)).toInt < (N : ℤ) := by have := i.isLt; omega
    rw [dif_pos h]
    congr 2
    exact Fin.ext (by show (idx (ixP e)).toInt.toNat = i.val; omega)

/-- A segment sum of rows at row `i`, column `l`: the operand's entry plus column `l` of the update rows whose
    segment id is `i`. -/
theorem scatterAdd_seg2_apply {N M C w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (l : Fin C) :
    Ideal.hostScatterAdd (segDims2 N M C wf) x idx upd (ix2 i l)
      = x (ix2 i l) + ∑ e : Fin M, if (idx (ixP e)).toInt = (i.val : ℤ) then upd (ix2 e l) else 0 := by
  unfold Ideal.hostScatterAdd
  congr 1
  -- the filtered sum as a sum of conditionals over (row, column) of the updates
  rw [Finset.sum_filter, sum_idx2]
  refine Finset.sum_congr rfl fun e _ => ?_
  simp only [resultIdx2_eq_some_iff]
  -- for a fixed update row, only column `l` can match
  by_cases ht : (idx (ixP e)).toInt = (i.val : ℤ)
  · simp only [ht, true_and, if_true]
    rw [Finset.sum_ite_eq' Finset.univ l (fun c => upd (ix2 e c)), if_pos (Finset.mem_univ l)]
  · simp only [ht, false_and, if_false, Finset.sum_const_zero]

end Cert.LibSegment

end
-- ==== Proof.Spec.lean ====
/-
  The graph layer as ONE function of its five arguments, on the extended reals.

  Nodes carry 128 features (`x`, 10000 rows); each of the 640000 edges names a source node and a destination node.
  Node `n` aggregates, feature by feature, the source rows of the edges that END at `n`; the aggregate is added to the
  node's own row, and the sum goes through a linear map: `out[n, o] = ∑ k, (x[n, k] + agg[n, k]) · W[o, k] + b[o]`.

  An edge's destination word is read as a signed integer and selects node `n` exactly when it equals `n` (a word
  outside `[0, 10000)` selects nobody); an edge's source word is read signed and clamped into the table's rows.

  The same aggregate is also spelled the way a block-by-block computation meets it: the edges cut into 1000 consecutive
  blocks of 640, each edge's source row picked by a sum against an indicator over all rows (`pick`), each block's
  contribution to node `n` a sum over its 640 edges against an indicator of the destination (`blockSum`).
-/
import Idealize.ShloMosaic.PureOps.Ideal
import Idealize.ShloMosaic.Lib.ValueIdx

noncomputable section

open scoped BigOperators

namespace Cert.GinSpec

open Idealize.ShloMosaic Idealize.ShloMosaic.ValueIdx

/-- Node features: 10000 rows of 128. -/
abbrev SX : Shape := ⟨2, ![10000, 128]⟩
/-- One endpoint per edge. -/
abbrev SE : Shape := ⟨1, ![640000]⟩
/-- The linear map's weights, `[out, in]`. -/
abbrev SW : Shape := ⟨2, ![128, 128]⟩
/-- The bias. -/
abbrev SB : Shape := ⟨1, ![128]⟩

/-- The table row a source word names: the word read signed, clamped into `[0, 9999]`. -/
def row (w : BitVec 32) : Fin 10000 := ⟨min w.toInt.toNat 9999, by omega⟩

/-- Feature `k` of what node `n` aggregates: over the edges whose destination is `n`, the feature of the source row. -/
def agg (x : SX.Idx → EReal) (src dst : SE.Idx → BitVec 32) (n : Fin 10000) (k : Fin 128) : EReal :=
  ∑ e : Fin 640000, if (dst (ix1 e)).toInt = (n.val : ℤ) then x (ix2 (row (src (ix1 e))) k) else 0

/-- The layer's output at `(n, o)`. -/
def out (x : SX.Idx → EReal) (src dst : SE.Idx → BitVec 32) (W : SW.Idx → EReal) (b : SB.Idx → EReal) :
    SX.Idx → EReal :=
  fun i => (∑ k : Fin 128, (x (ix2 (i 0) k) + agg x src dst (i 0) k) * W (ix2 (i 1) k)) + b (ix1 (i 1))

/-! ## The block-by-block spelling -/

/-- The indicator of "word `w` is the number `n`", as an extended real. -/
def ind (w : BitVec 32) (n : ℕ) : EReal := if w = BitVec.ofNat 32 n then 1 else 0

/-- Feature `d` of the row a word picks out of a table, as a sum against the indicator over all rows. -/
def pick (x : SX.Idx → EReal) (w : BitVec 32) (d : Fin 128) : EReal :=
  ∑ r : Fin 10000, ind w r.val * x (ix2 r d)

/-- Entry `j` of an edge array, `0` past its end. -/
def edgeAt (v : SE.Idx → BitVec 32) (j : ℕ) : BitVec 32 := if h : j < 640000 then v (ix1 ⟨j, h⟩) else 0

/-- What block `s` (edges `640·s … 640·s + 639`) contributes to feature `d` of node `n`. -/
def blockSum (x : SX.Idx → EReal) (src dst : SE.Idx → BitVec 32) (s : ℕ) (n : Fin 10000) (d : Fin 128) : EReal :=
  ∑ e : Fin 640, ind (edgeAt dst (640 * s + e.val)) n.val * pick x (edgeAt src (640 * s + e.val)) d

end Cert.GinSpec

end
-- ==== Proof.RefValue.lean ====
/-
  The reference, read at an index on the extended reals: under "every source word is a row number" its result IS the
  layer's function `Cert.GinSpec.out` of the five arguments.

  The reference first wraps a negative source word around (adds 10000), which does nothing to a word in `[0, 10000)`;
  gathers the source rows (the row at the word read signed and clamped); scatter-adds them into a zero table by the
  destination word (read signed; a word outside the table drops its row); adds the node's own row; and applies the
  linear map with the weights transposed and the bias broadcast down the rows.
-/
import proofs.«402181_j2834678415936_2_alg».proof.Proof.Gen.ReferenceIdeal.Read
import proofs.«402181_j2834678415936_2_alg».proof.Proof.LibGather
import proofs.«402181_j2834678415936_2_alg».proof.Proof.LibSegment
import proofs.«402181_j2834678415936_2_alg».proof.Proof.Spec
import Idealize.ShloMosaic.Lib.ValueIdx
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.ValueIdx

open Idealize.ShloMosaic.StableHlo.Predicate (ixP)

/-! ## Index functions of the layout operations, at coordinates -/

/-- The contraction's left index at `(n, o)`, `k`: row `n`, column `k`. -/
theorem lidx_eq (n : Fin 10000) (o k : Fin 128) : Read.lidx_main_v12 (ix2 n o) k = ix2 n k := by
  funext a; match a with | ⟨0, _⟩ => rfl | ⟨1, _⟩ => rfl

/-- The contraction's right index at `(n, o)`, `k`: row `k`, column `o`. -/
theorem ridx_eq (n : Fin 10000) (o k : Fin 128) : Read.ridx_main_v12 (ix2 n o) k = ix2 k o := by
  funext a; match a with | ⟨0, _⟩ => rfl | ⟨1, _⟩ => rfl

/-- The transposed weights at `(k, o)` are the weights at `(o, k)`. -/
theorem v11_at (x3 : (⟨S128x128, .f32⟩ : BufTy).Contents (Elt Ideal)) (k o : Fin 128) :
    Read.val_main_v11 (F := Ideal) x3 (ix2 k o) = x3 (ix2 o k) := by
  rw [Read.val_main_v11_apply]
  congr 1
  funext a; match a with | ⟨0, _⟩ => rfl | ⟨1, _⟩ => rfl

/-- The bias broadcast down the rows reads, at `(n, o)`, the bias at `o`. -/
theorem v14_at (x4 : (⟨S128, .f32⟩ : BufTy).Contents (Elt Ideal)) (n : Fin 10000) (o : Fin 128) :
    Read.val_main_v14 (F := Ideal) x4 (ix2 n o) = x4 (ix1 o) := by
  rw [Read.val_main_v14_apply, Read.val_main_v13_apply]
  congr 1
  funext a; match a with | ⟨0, _⟩ => rfl

/-! ## The source column: a word in `[0, 10000)` is not wrapped around -/

/-- A nonnegative word is kept by the wrap-around select: the signed test "word below zero" fails. -/
theorem v4_at (x1 : (⟨S640000, .i32⟩ : BufTy).Contents (Elt Ideal)) (e : Fin 640000)
    (h0 : 0 ≤ (x1 (ix1 e)).toInt) :
    Read.val_main_v4 (F := Ideal) x1 (ix1 e) = x1 (ix1 e) := by
  rw [Read.val_main_v4_apply, Read.val_main_v1_apply, Read.val_main_v0_apply, Read.val_main_c_apply]
  have hb : IntOp.cmpi .slt (x1 (ix1 e)) 0#32 = 0#1 := by
    apply eq_zero_of_ne_one
    rw [IntOp.cmpi_slt]
    have z0 : (0#32 : BitVec 32).toInt = 0 := by decide
    rw [z0]
    omega
  rw [hb, select_zero]

/-- The source column at row `e` is the (possibly wrapped) source word `e`. -/
theorem v5_at (x1 : (⟨S640000, .i32⟩ : BufTy).Contents (Elt Ideal)) (e : Fin 640000) :
    Read.val_main_v5 (F := Ideal) x1 (ixP e) = Read.val_main_v4 (F := Ideal) x1 (ix1 e) := by
  rw [Read.val_main_v5_apply]
  congr 1
  funext a; match a with | ⟨0, _⟩ => rfl

/-- The destination column at row `e` is the destination word `e`. -/
theorem v8_at (x2 : (⟨S640000, .i32⟩ : BufTy).Contents (Elt Ideal)) (e : Fin 640000) :
    Read.val_main_v8 (F := Ideal) x2 (ixP e) = x2 (ix1 e) := by
  rw [Read.val_main_v8_apply]
  congr 1
  funext a; match a with | ⟨0, _⟩ => rfl

/-- The table the scatter adds into is zero everywhere. -/
theorem v7_at (i : S10000x128.Idx) : Read.val_main_v7 (F := Ideal) i = 0 := by
  rw [Read.val_main_v7_apply, Read.val_main_cst_apply]
  exact Ideal.ofBits_zero_f32

/-! ## The gather and the scatter-add -/

/-- The gathered rows: row `e` is the table's row that source word `e` names, read signed and clamped. -/
theorem v6_at (x0 : (⟨S10000x128, .f32⟩ : BufTy).Contents (Elt Ideal)) (x1 : (⟨S640000, .i32⟩ : BufTy).Contents (Elt Ideal))
    (hsrc : ∀ e : Fin 640000, 0 ≤ (x1 (ix1 e)).toInt ∧ (x1 (ix1 e)).toInt < 10000) (e : Fin 640000) (k : Fin 128) :
    Read.val_main_v6 (F := Ideal) x0 x1 (ix2 e k) = x0 (ix2 (GinSpec.row (x1 (ix1 e))) k) := by
  show Host.gather (Cert.LibGather.rowGatherDims 10000 640000 128 _) x0 (Read.val_main_v5 (F := Ideal) x1) (ix2 e k) = _
  rw [Cert.LibGather.gather_rows_apply (by decide)]
  -- the two rows are the same number: the column entry is the source word, kept by the wrap-around select
  refine congrArg (fun r : Fin 10000 => x0 (ix2 r k)) (Fin.ext ?_)
  show min (Read.val_main_v5 (F := Ideal) x1 (ixP e)).toInt.toNat 9999 = min (x1 (ix1 e)).toInt.toNat 9999
  rw [v5_at, v4_at x1 e (hsrc e).1]

/-- The scatter's dimension numbers are those of a segment sum of rows: 10000 rows of 128, 640000 updates. -/
theorem scatter_dims_eq :
    scatter_S10000x128_S640000x1_S640000x128_1_0_0_1 = Cert.LibSegment.segDims2 10000 640000 128 Facts₀.scatter_S10000x128_S640000x1_S640000x128_1_0_0_1_wf := by
  rfl

/-- The scatter, on the extended reals, is the exact accumulating sum of its three operands. -/
theorem v9_def (x0 : (⟨S10000x128, .f32⟩ : BufTy).Contents (Elt Ideal)) (x1 x2 : (⟨S640000, .i32⟩ : BufTy).Contents (Elt Ideal)) :
    Read.val_main_v9 (F := Ideal) x0 x1 x2
      = Ideal.hostScatterAdd scatter_S10000x128_S640000x1_S640000x128_1_0_0_1 (Read.val_main_v7 (F := Ideal))
          (Read.val_main_v8 (F := Ideal) x2) (Read.val_main_v6 (F := Ideal) x0 x1) := by
  rfl

/-- The scatter-add into the zero table at `(n, k)`: feature `k` of the source rows of the edges that end at `n`. -/
theorem v9_at (x0 : (⟨S10000x128, .f32⟩ : BufTy).Contents (Elt Ideal)) (x1 x2 : (⟨S640000, .i32⟩ : BufTy).Contents (Elt Ideal))
    (hsrc : ∀ e : Fin 640000, 0 ≤ (x1 (ix1 e)).toInt ∧ (x1 (ix1 e)).toInt < 10000) (n : Fin 10000) (k : Fin 128) :
    Read.val_main_v9 (F := Ideal) x0 x1 x2 (ix2 n k) = GinSpec.agg x0 x1 x2 n k := by
  rw [v9_def, scatter_dims_eq, Cert.LibSegment.scatterAdd_seg2_apply, v7_at, zero_add]
  unfold GinSpec.agg
  refine Finset.sum_congr rfl fun e _ => ?_
  rw [v8_at, v6_at x0 x1 hsrc e k]

/-- The node's own row plus its aggregate. -/
theorem v10_at (x0 : (⟨S10000x128, .f32⟩ : BufTy).Contents (Elt Ideal)) (x1 x2 : (⟨S640000, .i32⟩ : BufTy).Contents (Elt Ideal))
    (hsrc : ∀ e : Fin 640000, 0 ≤ (x1 (ix1 e)).toInt ∧ (x1 (ix1 e)).toInt < 10000) (n : Fin 10000) (k : Fin 128) :
    Read.val_main_v10 (F := Ideal) x0 x1 x2 (ix2 n k) = x0 (ix2 n k) + GinSpec.agg x0 x1 x2 n k := by
  rw [Read.val_main_v10_apply, v9_at x0 x1 x2 hsrc n k]
  rfl

/-- The reference's result is the layer's function, when every source word lies in `[0, 10000)`. -/
theorem result_eq (x0 : (⟨S10000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal))
    (hsrc : ∀ e : Fin 640000, 0 ≤ (x1 (ix1 e)).toInt ∧ (x1 (ix1 e)).toInt < 10000) :
    Cert.ReferenceIdeal.Read.val_main_v15 (F := Ideal) x0 x1 x2 x3 x4 = Cert.GinSpec.out x0 x1 x2 x3 x4 := by
  funext i
  obtain ⟨n, o, rfl⟩ : ∃ (n : Fin 10000) (o : Fin 128), i = ix2 n o := ⟨i 0, i 1, eq_ix2 i⟩
  -- the result is the bias added to the product of (own row + aggregate) with the transposed weights
  rw [Read.val_main_v15_apply, Read.val_main_v12_apply, v14_at]
  show _ = (∑ k : Fin 128, (x0 (ix2 n k) + GinSpec.agg x0 x1 x2 n k) * x3 (ix2 o k)) + x4 (ix1 o)
  show (∑ k : Fin 128, _) + x4 (ix1 o) = _
  congr 1
  refine Finset.sum_congr rfl fun k _ => ?_
  rw [lidx_eq, ridx_eq, v10_at x0 x1 x2 hsrc n k, v11_at]

end Cert.ReferenceIdeal.RefValue

end
-- ==== Proof.Pieces.lean ====
/-
  What one grid point leaves behind, as values of what it found.

  The body runs in three ways. At the first point it clears the aggregate, copies the feature table into the narrow
  buffer, and then adds the first block's contribution: the aggregate ends at "zero plus the contribution over the copied
  table", the narrow buffer at the copy. At a middle point it adds its block's contribution to the aggregate it found
  and leaves the narrow buffer alone. At the last point it does the same and then writes the output from the table, the
  aggregate it has JUST stored, the weights and the bias. Each is one covering store, so what the buffer holds afterwards
  is that store's value, with every load replaced by the contents it read.
-/
import proofs.«402181_j2834678415936_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A middle point: the aggregate it found plus its block's contribution, over the narrow table it found. -/
theorem acc_mid (c : Dev nD) (i : grid0.Coords) (arg1 : Memref sig .tc .vmem S10000x128 .f32) (harg1 : arg1.IsWhole) (arg2 : Memref sig .tc .vmem S640x1 .i32) (harg2 : arg2.IsWhole) (arg3 : Memref sig .tc .vmem S640x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S10000x128 .bf16) (harg8 : arg8.IsWhole) (hc0 : ¬cond0_0 i) (hc1 : ¬cond0_1 i) (x0 : Vec F S10000x128 .f32) (x1 : Vec F S640x1 .i32) (x2 : Vec F S640x1 .i32) (x3 : Vec F S128x128 .f32) (x4 : Vec F S128 .f32) (xs0 : Vec F S10000x128 .f32) (xs1 : Vec F S10000x128 .bf16) :
    sout0_B_0 c i arg1 harg1 arg2 harg2 arg3 harg3 arg4 harg4 arg5 harg5 arg6 harg6 arg7 harg7 arg8 harg8 hc0 hc1 x0 x1 x2 x3 x4 xs0 xs1 = k0_pay3 x1 x2 xs1 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 x4 xs0 xs1)]
  unfold kernelRun0_B
  dsimp only
  sl_unfold_words
  rw [View.canon_unit_zero hz2]
  simp only [View.readAt_eq_ld, harg2.read_unread, harg3.read_unread, harg7.read_unread, harg8.read_unread,
    View.ld_unit_zero (S := S640x1) hz2, View.ld_unit_zero (S := S10000x128) hz2]

/-- The last point's aggregate: as at a middle point. -/
theorem acc_last (c : Dev nD) (i : grid0.Coords) (arg1 : Memref sig .tc .vmem S10000x128 .f32) (harg1 : arg1.IsWhole) (arg2 : Memref sig .tc .vmem S640x1 .i32) (harg2 : arg2.IsWhole) (arg3 : Memref sig .tc .vmem S640x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S10000x128 .bf16) (harg8 : arg8.IsWhole) (hc0 : ¬cond0_0 i) (hc1 : cond0_1 i) (x0 : Vec F S10000x128 .f32) (x1 : Vec F S640x1 .i32) (x2 : Vec F S640x1 .i32) (x3 : Vec F S128x128 .f32) (x4 : Vec F S128 .f32) (xs0 : Vec F S10000x128 .f32) (xs1 : Vec F S10000x128 .bf16) :
    sout0_C_0 c i arg1 harg1 arg2 harg2 arg3 harg3 arg4 harg4 arg5 harg5 arg6 harg6 arg7 harg7 arg8 harg8 hc0 hc1 x0 x1 x2 x3 x4 xs0 xs1 = k0_pay3 x1 x2 xs1 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 x4 xs0 xs1)]
  unfold kernelRun0_C
  dsimp only
  sl_unfold_words
  rw [View.canon_unit_zero hz2]
  simp only [View.readAt_eq_ld, harg2.read_unread, harg3.read_unread, harg7.read_unread, harg8.read_unread,
    View.ld_unit_zero (S := S640x1) hz2, View.ld_unit_zero (S := S10000x128) hz2]

/-- The last point's output: from the table, the aggregate just stored, the weights and the bias. -/
theorem out_last (c : Dev nD) (i : grid0.Coords) (arg1 : Memref sig .tc .vmem S10000x128 .f32) (harg1 : arg1.IsWhole) (arg2 : Memref sig .tc .vmem S640x1 .i32) (harg2 : arg2.IsWhole) (arg3 : Memref sig .tc .vmem S640x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S10000x128 .bf16) (harg8 : arg8.IsWhole) (hc0 : ¬cond0_0 i) (hc1 : cond0_1 i) (x0 : Vec F S10000x128 .f32) (x1 : Vec F S640x1 .i32) (x2 : Vec F S640x1 .i32) (x3 : Vec F S128x128 .f32) (x4 : Vec F S128 .f32) (xs0 : Vec F S10000x128 .f32) (xs1 : Vec F S10000x128 .bf16) :
    out0_C_5 c i arg1 harg1 arg2 harg2 arg3 harg3 arg4 harg4 arg5 harg5 arg6 harg6 arg7 harg7 arg8 harg8 hc0 hc1 x0 x1 x2 x3 x4 xs0 xs1 = k0_pay4 x0 (k0_pay3 x1 x2 xs1 xs0) x3 x4 := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 x3 x4 xs0 xs1)]
  unfold kernelRun0_C
  dsimp only
  sl_unfold_words
  rw [View.canon_unit_zero hz2]
  simp only [View.readAt_eq_ld, harg1.read_unread, harg2.read_unread, harg3.read_unread, harg4.read_unread,
    harg5.read_unread, harg7.read_unread, harg8.read_unread, View.readCov_unit_zero (S := S10000x128) _ hz2,
    View.ld_unit_zero (S := S640x1) hz2, View.ld_unit_zero (S := S10000x128) hz2,
    View.ld_unit_zero (S := S128x128) hz2, View.ld_unit_zero (S := S128) hz1]

/-- The first point's aggregate: the cleared block plus the first contribution, over the table just copied. -/
theorem acc_first (c : Dev nD) (i : grid0.Coords) (arg1 : Memref sig .tc .vmem S10000x128 .f32) (harg1 : arg1.IsWhole) (arg2 : Memref sig .tc .vmem S640x1 .i32) (harg2 : arg2.IsWhole) (arg3 : Memref sig .tc .vmem S640x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S10000x128 .bf16) (harg8 : arg8.IsWhole) (hc0 : cond0_0 i) (hc1 : ¬cond0_1 i) (x0 : Vec F S10000x128 .f32) (x1 : Vec F S640x1 .i32) (x2 : Vec F S640x1 .i32) (x3 : Vec F S128x128 .f32) (x4 : Vec F S128 .f32) :
    sout0_A_0 c i arg1 harg1 arg2 harg2 arg3 harg3 arg4 harg4 arg5 harg5 arg6 harg6 arg7 harg7 arg8 harg8 hc0 hc1 x0 x1 x2 x3 x4 = k0_pay3 x1 x2 (k0_pay2 x0) k0_pay1 := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S10000x128) hz2]
  simp only [View.readAt_eq_ld, harg1.read_unread, harg2.read_unread, harg3.read_unread,
    View.readCov_unit_zero (S := S10000x128) _ hz2,
    View.ld_unit_zero (S := S640x1) hz2, View.ld_unit_zero (S := S10000x128) hz2]

/-- The first point's narrow buffer: the copy of the table. -/
theorem narrow_first (c : Dev nD) (i : grid0.Coords) (arg1 : Memref sig .tc .vmem S10000x128 .f32) (harg1 : arg1.IsWhole) (arg2 : Memref sig .tc .vmem S640x1 .i32) (harg2 : arg2.IsWhole) (arg3 : Memref sig .tc .vmem S640x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S10000x128 .bf16) (harg8 : arg8.IsWhole) (hc0 : cond0_0 i) (hc1 : ¬cond0_1 i) (x0 : Vec F S10000x128 .f32) (x1 : Vec F S640x1 .i32) (x2 : Vec F S640x1 .i32) (x3 : Vec F S128x128 .f32) (x4 : Vec F S128 .f32) :
    sout0_A_1 c i arg1 harg1 arg2 harg2 arg3 harg3 arg4 harg4 arg5 harg5 arg6 harg6 arg7 harg7 arg8 harg8 hc0 hc1 x0 x1 x2 x3 x4 = k0_pay2 x0 := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2 x3 x4)]
  unfold kernelRun0_A
  dsimp only
  sl_unfold_words
  rw [View.canon_unit_zero hz2]
  simp only [View.readAt_eq_ld, harg1.read_unread, View.ld_unit_zero (S := S10000x128) hz2]

end Cert.KernelIdeal.Pieces

end
-- ==== Proof.Steps.lean ====
/-
  What each of the three kinds of grid point leaves in the carried buffers and the output block, as the body's stored
  values of the blocks it loaded and of what the point before left: the first point (nothing before it), a middle point,
  and the last point (which also writes the output).
-/
import proofs.«402181_j2834678415936_2_alg».proof.Proof.Gen.KernelIdeal.Frame
import proofs.«402181_j2834678415936_2_alg».proof.Proof.Pieces
import proofs.«402181_j2834678415936_2_alg».proof.Proof.Spec
import Idealize.ShloMosaic.Lib.ValueIdx

set_option maxRecDepth 16384

noncomputable section

open scoped BigOperators
open Idealize.ShloMosaic Idealize.ShloMosaic.TcCoe Idealize.SL.Sem Idealize.ShloMosaic.ValueIdx

namespace Cert.KernelIdeal.Steps

open Cert.KernelIdeal Cert.KernelIdeal.Gen

variable (m : (ℓ : Loc nD τ sig) → Buf (Elt Ideal) ℓ)

/-- The five arguments on core `c`, at their literal types. -/
abbrev xA (c : Dev nD) : Cert.GinSpec.SX.Idx → EReal := m ((c : Thread nD τ).loc main_arg0)
abbrev srcA (c : Dev nD) : Cert.GinSpec.SE.Idx → BitVec 32 := m ((c : Thread nD τ).loc main_arg1)
abbrev dstA (c : Dev nD) : Cert.GinSpec.SE.Idx → BitVec 32 := m ((c : Thread nD τ).loc main_arg2)
abbrev wA (c : Dev nD) : Cert.GinSpec.SW.Idx → EReal := m ((c : Thread nD τ).loc main_arg3)
abbrev bA (c : Dev nD) : Cert.GinSpec.SB.Idx → EReal := m ((c : Thread nD τ).loc main_arg4)

/-- The blocks a point loads, at their literal types. -/
abbrev xblk (c : Dev nD) (t : Fin cfg0.N) : Vec Ideal S10000x128 .f32 := iblk m c 0 t
abbrev sblk (c : Dev nD) (t : Fin cfg0.N) : Vec Ideal S640x1 .i32 := iblk m c 1 t
abbrev dblk (c : Dev nD) (t : Fin cfg0.N) : Vec Ideal S640x1 .i32 := iblk m c 2 t
abbrev wblk (c : Dev nD) (t : Fin cfg0.N) : Vec Ideal S128x128 .f32 := iblk m c 3 t
abbrev bblk (c : Dev nD) (t : Fin cfg0.N) : Vec Ideal S128 .f32 := iblk m c 4 t

/-! ## What each kind of point leaves, in terms of the body's stored values -/

/-- The first point. -/
theorem at_first (c : Dev nD) (t : Fin cfg0.N) (h0 : t.val % 1000 = 0) (h1 : ¬t.val % 1000 = 999) :
    (outsAt0 m c t.val t.isLt).2.1 = k0_pay3 (sblk m c t) (dblk m c t) (k0_pay2 (xblk m c t)) (k0_pay1 (F := Ideal))
    ∧ (outsAt0 m c t.val t.isLt).2.2 = k0_pay2 (xblk m c t) := by
  rw [outsAt0_A m c t h0 h1]
  dsimp only
  exact ⟨Cert.KernelIdeal.Pieces.acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t),
    Cert.KernelIdeal.Pieces.narrow_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)⟩

/-- A middle point, over what the point before left. -/
theorem at_mid (c : Dev nD) (t : Fin cfg0.N) (h0 : ¬t.val % 1000 = 0) (h1 : ¬t.val % 1000 = 999) :
    (outsAt0 m c t.val t.isLt).2.1 = k0_pay3 (sblk m c t) (dblk m c t) (outsAt0 m c (t.val - 1) (Nat.lt_of_le_of_lt (Nat.sub_le _ _) t.isLt)).2.2 (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 := by
  rw [outsAt0_B m c t h0 h1]
  dsimp only
  exact ⟨Cert.KernelIdeal.Pieces.acc_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    rfl⟩

/-- The last point, over what the point before left: the aggregate, the narrow table, and the output block. -/
theorem at_last (c : Dev nD) (t : Fin cfg0.N) (h0 : ¬t.val % 1000 = 0) (h1 : t.val % 1000 = 999) :
    (outsAt0 m c t.val t.isLt).1
        = k0_pay4 (xblk m c t) (k0_pay3 (sblk m c t) (dblk m c t) (outsAt0 m c (t.val - 1) (Nat.lt_of_le_of_lt (Nat.sub_le _ _) t.isLt)).2.2 (outsAt0 m c (t.val - 1) (Nat.lt_of_le_of_lt (Nat.sub_le _ _) t.isLt)).2.1) (wblk m c t) (bblk m c t)
    ∧ (outsAt0 m c t.val t.isLt).2.1 = k0_pay3 (sblk m c t) (dblk m c t) (outsAt0 m c (t.val - 1) (Nat.lt_of_le_of_lt (Nat.sub_le _ _) t.isLt)).2.2 (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 := by
  rw [outsAt0_C m c t h0 h1]
  dsimp only
  exact ⟨Cert.KernelIdeal.Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    Cert.KernelIdeal.Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    rfl⟩

end Cert.KernelIdeal.Steps

end
-- ==== Proof.LibColumn.lean ====
/-
  A column kept by a row reduction, read at an index: an `[a]` vector viewed as the column `[a, 1]`, and a column
  `[a, 1]` spread over `b` columns. (What `keepdims` leaves of a row maximum or a row sum before it meets the rows again.)
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.Blocks.lean ====
/-
  The blocks the body loads, read off the argument arrays.

  The feature table, the weights and the bias are staged whole (block index zero on every axis), so their block at any
  grid point is the array itself; the weights reach the region already transposed, so entry `(k, o)` of their block is
  `W[o, k]`. The two edge arrays reach the region as `[640000, 1]` columns and are staged 640 rows at a time: row `e` of
  the block at point `t` is edge `640·t + e`.
-/
import proofs.«402181_j2834678415936_2_alg».proof.Proof.Gen.KernelIdeal.Frame
import proofs.«402181_j2834678415936_2_alg».proof.Proof.LibColumn
import proofs.«402181_j2834678415936_2_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-! ## The block indices, decided over the grid -/

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 :=
  (by decide +kernel : ∀ t : Fin grid0.N, win0_4.index t 0 = 0)

/-! ## The arrays the host operations write before the region -/

/-- The source column is the source array viewed as `[640000, 1]`. -/
theorem arr_src (c : Dev nD) : (V m c main_v1 : S640000x1.Idx → BitVec 32)
    = shapeCast S640000x1 (m ((c : Thread nD τ).loc main_arg1)) shapeCasts_S640000_S640000x1 := by
  dsimp only [V, hostOps0]
  after_results
  rfl

/-- The destination column likewise. -/
theorem arr_dst (c : Dev nD) : (V m c main_v2 : S640000x1.Idx → BitVec 32)
    = shapeCast S640000x1 (m ((c : Thread nD τ).loc main_arg2)) shapeCasts_S640000_S640000x1 := by
  dsimp only [V, hostOps0]
  after_results
  rfl

/-- The staged weights are the transposed weight array. -/
theorem arr_w (c : Dev nD) : (V m c main_v0 : Vec Ideal S128x128 .f32)
    = transpose S128x128 [1, 0] (m ((c : Thread nD τ).loc main_arg3)) transposes_S128x128_S128x128_1_0 := by
  dsimp only [V, hostOps0]
  after_results

/-! ## The blocks -/

/-- The table's block is the table. -/
theorem blk_x (c : Dev nD) (t : Fin cfg0.N) :
    (iblk m c 0 t : Vec Ideal S10000x128 .f32) = m ((c : Thread nD τ).loc main_arg0) := by
  funext y
  unfold iblk
  rw [View.read_apply]
  show V m c main_arg0 (((cfg0.win 0).blk t).view.emb y) = _
  rw [V_main_arg0]
  congr 1
  funext a
  apply Fin.ext
  match a with
  | ⟨0, _⟩ => show win0_0.index t 0 * 10000 + 1 * (y 0).val = (y 0).val; rw [(idx0 t).1]; omega
  | ⟨1, _⟩ => show win0_0.index t 1 * 128 + 1 * (y 1).val = (y 1).val; rw [(idx0 t).2]; omega

/-- Row `e` of the source block at point `t` is edge `640·t + e`'s source. -/
theorem blk_src (c : Dev nD) (t : Fin cfg0.N) (e : Fin 640) :
    (iblk m c 1 t : Vec Ideal S640x1 .i32) (ix2 e (0 : Fin 1))
      = Cert.GinSpec.edgeAt (m ((c : Thread nD τ).loc main_arg1)) (640 * t.val + e.val) := by
  have hN : cfg0.N = 1000 := N_0
  have hj : 640 * t.val + e.val < 640000 := by have := t.isLt; omega
  unfold Cert.GinSpec.edgeAt
  rw [dif_pos hj]
  unfold iblk
  rw [View.read_apply]
  show V m c main_v1 (((cfg0.win 1).blk t).view.emb (ix2 e (0 : Fin 1))) = _
  rw [arr_src, ← Cert.LibColumn.shapeCast_a_a1_apply (m ((c : Thread nD τ).loc main_arg1)) shapeCasts_S640000_S640000x1
    ⟨640 * t.val + e.val, hj⟩ (0 : Fin 1)]
  congr 1
  funext a
  apply Fin.ext
  match a with
  | ⟨0, _⟩ => show win0_1.index t 0 * 640 + 1 * e.val = 640 * t.val + e.val; rw [(idx1 t).1]; omega
  | ⟨1, _⟩ => show win0_1.index t 1 * 1 + 1 * 0 = 0; rw [(idx1 t).2]

/-- Row `e` of the destination block at point `t` is edge `640·t + e`'s destination. -/
theorem blk_dst (c : Dev nD) (t : Fin cfg0.N) (e : Fin 640) :
    (iblk m c 2 t : Vec Ideal S640x1 .i32) (ix2 e (0 : Fin 1))
      = Cert.GinSpec.edgeAt (m ((c : Thread nD τ).loc main_arg2)) (640 * t.val + e.val) := by
  have hN : cfg0.N = 1000 := N_0
  have hj : 640 * t.val + e.val < 640000 := by have := t.isLt; omega
  unfold Cert.GinSpec.edgeAt
  rw [dif_pos hj]
  unfold iblk
  rw [View.read_apply]
  show V m c main_v2 (((cfg0.win 2).blk t).view.emb (ix2 e (0 : Fin 1))) = _
  rw [arr_dst, ← Cert.LibColumn.shapeCast_a_a1_apply (m ((c : Thread nD τ).loc main_arg2)) shapeCasts_S640000_S640000x1
    ⟨640 * t.val + e.val, hj⟩ (0 : Fin 1)]
  congr 1
  funext a
  apply Fin.ext
  match a with
  | ⟨0, _⟩ => show win0_2.index t 0 * 640 + 1 * e.val = 640 * t.val + e.val; rw [(idx2 t).1]; omega
  | ⟨1, _⟩ => show win0_2.index t 1 * 1 + 1 * 0 = 0; rw [(idx2 t).2]

/-- Entry `(k, o)` of the weights' block is `W[o, k]`. -/
theorem blk_w (c : Dev nD) (t : Fin cfg0.N) (k o : Fin 128) :
    (iblk m c 3 t : Vec Ideal S128x128 .f32) (ix2 k o) = m ((c : Thread nD τ).loc main_arg3) (ix2 o k) := by
  unfold iblk
  rw [View.read_apply]
  show V m c main_v0 (((cfg0.win 3).blk t).view.emb (ix2 k o)) = _
  rw [arr_w]
  refine transpose_apply [1, 0] (m ((c : Thread nD τ).loc main_arg3)) transposes_S128x128_S128x128_1_0 _ (ix2 o k) (fun b => ?_)
  match b with
  | ⟨0, _⟩ => show k.val = win0_3.index t 0 * 128 + 1 * k.val; rw [(idx3 t).1]; omega
  | ⟨1, _⟩ => show o.val = win0_3.index t 1 * 128 + 1 * o.val; rw [(idx3 t).2]; omega

/-- The bias' block is the bias. -/
theorem blk_b (c : Dev nD) (t : Fin cfg0.N) :
    (iblk m c 4 t : Vec Ideal S128 .f32) = m ((c : Thread nD τ).loc main_arg4) := by
  funext y
  unfold iblk
  rw [View.read_apply]
  show V m c main_arg4 (((cfg0.win 4).blk t).view.emb y) = _
  rw [V_main_arg4]
  congr 1
  funext a
  apply Fin.ext
  match a with
  | ⟨0, _⟩ => show win0_4.index t 0 * 128 + 1 * (y 0).val = (y 0).val; rw [idx4 t]; omega

end Cert.KernelIdeal.Blocks

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.LibMatProdT.lean ====
/-
  A transposed-left matrix product on the extended reals as a sum over the shared axis.

  For the dimension numbers of a `K × A` by `K × B` product that contracts axis 0 of BOTH operands
  (`tdims K A B`: the left operand's axis 0 with the right operand's axis 0, no batch axes; the result's rows are the
  left operand's columns, its columns the right operand's), a kernel's `tpu.matmul` into a zero accumulator and a host
  `dot_general` are, at entry `(a, b)`, the sum over `k : Fin K` of `lhs (k, a) * rhs (k, b)`: the product of the
  transposed left operand with the right one. A printed record with these six lists is `tdims` by `rfl`.
-/
import Idealize.ShloMosaic.PureOps.Ideal.Laws
import Idealize.ShloMosaic.Lib.ValueIdx

noncomputable section

namespace Cert.LibMatProdT

open Idealize.ShloMosaic Idealize.ShloMosaic.ValueIdx

/-- `K×A` by `K×B`, both operands contracted on their first axis: contracting axes `[0]` and `[0]`, non-contracting axes
    `[1]` and `[1]`, no batch axes; the result is `A×B`. -/
def tdims (K A B : ℕ) : DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap 0 1 [], by simpa [List.finRange] using List.Perm.swap 0 1 [],
    rfl, Nat.two_pos, fun b => by fin_cases b <;> rfl⟩

variable (K A B : ℕ)

/-- The left operand's index at result index `i` and contraction index `q`: row `q`'s one coordinate … -/
theorem lhs_axis0 (i : (⟨2, ![A, B]⟩ : Shape).Idx) (q : (tdims K A B).contr.Idx) :
    ((tdims K A B).lhsIdx i q 0).val = (q ⟨0, Nat.one_pos⟩).val :=
  (tdims K A B).lhsIdx_val_of_single rfl i q
/-- … column `i 0`. -/
theorem lhs_axis1 (i : (⟨2, ![A, B]⟩ : Shape).Idx) (q : (tdims K A B).contr.Idx) :
    ((tdims K A B).lhsIdx i q 1).val = (i 0).val := by
  unfold DotDims.lhsIdx
  rw [dif_neg (show ¬(1 : Fin (⟨2, ![K, A]⟩ : Shape).rank) ∈ (tdims K A B).lhsBatch from List.not_mem_nil),
    dif_pos (show (1 : Fin (⟨2, ![K, A]⟩ : Shape).rank) ∈ (tdims K A B).lhsNonContracting from List.mem_singleton.2 rfl)]
  rfl
/-- The right operand's index: row `q`'s one coordinate … -/
theorem rhs_axis0 (i : (⟨2, ![A, B]⟩ : Shape).Idx) (q : (tdims K A B).contr.Idx) :
    ((tdims K A B).rhsIdx i q 0).val = (q ⟨0, Nat.one_pos⟩).val :=
  (tdims K A B).rhsIdx_val_of_single rfl i q
/-- … column `i 1`. -/
theorem rhs_axis1 (i : (⟨2, ![A, B]⟩ : Shape).Idx) (q : (tdims K A B).contr.Idx) :
    ((tdims K A B).rhsIdx i q 1).val = (i 1).val := by
  unfold DotDims.rhsIdx
  rw [dif_neg (show ¬(1 : Fin (⟨2, ![K, B]⟩ : Shape).rank) ∈ (tdims K A B).rhsBatch from List.not_mem_nil),
    dif_pos (show (1 : Fin (⟨2, ![K, B]⟩ : Shape).rank) ∈ (tdims K A B).rhsNonContracting from List.mem_singleton.2 rfl)]
  rfl

/-- The sum over the contraction index of a transposed-left product is the sum over `k : Fin K`. -/
theorem tdims_sum (l : (⟨2, ![K, A]⟩ : Shape).Idx → EReal) (r : (⟨2, ![K, B]⟩ : Shape).Idx → EReal) (a : Fin A) (b : Fin B) :
    (∑ q : (tdims K A B).contr.Idx,
        l ((tdims K A B).lhsIdx (ix2 a b) q) * r ((tdims K A B).rhsIdx (ix2 a b) q))
      = ∑ k : Fin K, l (ix2 k a) * r (ix2 k b) := by
  rw [← Equiv.sum_comp (contrEquiv1 (tdims K A B) K rfl rfl).symm]
  refine Finset.sum_congr rfl fun k _ => ?_
  have hk := contrEquiv1_symm_val (tdims K A B) K rfl rfl k
  have el : (tdims K A B).lhsIdx (ix2 a b) ((contrEquiv1 (tdims K A B) K rfl rfl).symm k) = ix2 k a :=
    funext fun ax => Fin.ext (by
      match ax with
      | ⟨0, _⟩ => exact (lhs_axis0 K A B _ _).trans hk
      | ⟨1, _⟩ => exact lhs_axis1 K A B _ _)
  have er : (tdims K A B).rhsIdx (ix2 a b) ((contrEquiv1 (tdims K A B) K rfl rfl).symm k) = ix2 k b :=
    funext fun ax => Fin.ext (by
      match ax with
      | ⟨0, _⟩ => exact (rhs_axis0 K A B _ _).trans hk
      | ⟨1, _⟩ => exact rhs_axis1 K A B _ _)
  rw [el, er]

variable {K A B}

/-- A kernel's transposed-left matrix product into a zero accumulator, at entry `(a, b)`. -/
theorem matmul_zero_apply {φ₁ φ₂ : FTy} (d : DotDims ⟨2, ![K, A]⟩ ⟨2, ![K, B]⟩ ⟨2, ![A, B]⟩) (hd : d = tdims K A B)
    (prec : Option ContractPrecision) (lhs : FVec Ideal ⟨2, ![K, A]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 k a) * rhs (ix2 k b) := by
  subst hd
  exact (Ideal.matmul_constant_zero_apply _ prec lhs rhs (ix2 a b)).trans (tdims_sum K A B lhs rhs a b)

/-- A host `dot_general` with these dimension numbers, at entry `(a, b)`. -/
theorem dotGeneral_apply {φ₁ φ₂ : FTy} (d : DotDims ⟨2, ![K, A]⟩ ⟨2, ![K, B]⟩ ⟨2, ![A, B]⟩) (hd : d = tdims K A B)
    (prec : Option ContractPrecision) (lhs : FVec Ideal ⟨2, ![K, A]⟩ φ₁) (rhs : FVec Ideal ⟨2, ![K, B]⟩ φ₂) (a : Fin A) (b : Fin B) :
    Host.dotGeneral d prec lhs rhs (ix2 a b) = ∑ k : Fin K, lhs (ix2 k a) * rhs (ix2 k b) := by
  subst hd
  exact (Ideal.dotGeneral_apply _ prec .single lhs rhs (ix2 a b)).trans (tdims_sum K A B lhs rhs a b)

end Cert.LibMatProdT

end
-- ==== Proof.KernelPay.lean ====
/-
  The kernel body's arithmetic, read at an index on the extended reals.

  The body's four stored values as plain formulas: the zero block; the feature table in the narrow format (the same
  numbers); the running aggregate plus one block's contribution, where an edge's source row is picked by a product with
  an indicator matrix and scattered to its destination by a second, transposed, indicator product; and the last point's
  `(x + aggregate) · Wᵀ + b`.
-/
import proofs.«402181_j2834678415936_2_alg».proof.Proof.Gen.KernelIdeal.Skeleton
import proofs.«402181_j2834678415936_2_alg».proof.Proof.LibMatProd
import proofs.«402181_j2834678415936_2_alg».proof.Proof.LibMatProdT
import proofs.«402181_j2834678415936_2_alg».proof.Proof.LibColumn
import proofs.«402181_j2834678415936_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The reset block is zero everywhere. -/
theorem pay1_apply (i : S10000x128.Idx) : k0_pay1 (F := Ideal) i = 0 := by
  unfold k0_pay1
  rw [shapeCast_self]
  exact Ideal.ofBits_zero_f32

/-- The narrow-format copy of the table holds the table's numbers. -/
theorem pay2_apply (v36 : Vec Ideal S10000x128 .f32) (i : S10000x128.Idx) : k0_pay2 (F := Ideal) v36 i = v36 i := by
  unfold k0_pay2
  rw [shapeCast_self]
  rfl

/-- The bit "a = b", widened to a word and read signed, is 1 or 0. -/
theorem bit_toInt (a b : BitVec 32) : ((IntOp.cmpi .eq a b).setWidth 32).toInt = if a = b then 1 else 0 := by
  unfold IntOp.cmpi
  by_cases h : a = b
  · have hb : (a == b) = true := by simpa using h
    rw [if_pos h]
    show ((BitVec.ofBool (a == b)).setWidth 32).toInt = 1
    rw [hb]; decide
  · have hb : (a == b) = false := by simpa using h
    rw [if_neg h]
    show ((BitVec.ofBool (a == b)).setWidth 32).toInt = 0
    rw [hb]; decide

/-- An entry of an indicator matrix: row `e`, column `r` compares the column's word `e` with the number `r`, and the
    bit, widened, read signed and converted, is `1` when they are equal and `0` when not. -/
theorem ind_entry (c : IVec S640x1 32) (e : Fin 640) (r : Fin 10000) :
    (truncf .bf16 (sitofp (F := Ideal) .f32 (extui 32 (cmpi .eq (broadcastTo S640x10000 c broadcasts_S640x1_S640x10000)
        (broadcastTo S640x10000 (iota .tc S1x10000 32 [1] iota_S1x10000_d1_w32) broadcasts_S1x10000_S640x10000)) natLt_1_32)) bitsLt_bf16_f32
        : FVec Ideal S640x10000 .bf16) (ix2 e r)
      = Cert.GinSpec.ind (c (ix2 e (0 : Fin 1))) r.val := by
  have hcol : broadcastTo S640x10000 c broadcasts_S640x1_S640x10000 (ix2 e r) = c (ix2 e (0 : Fin 1)) :=
    Cert.LibColumn.broadcastTo_a1_ab_apply c _ e r
  have hrow : broadcastTo S640x10000 (iota .tc S1x10000 32 [1] iota_S1x10000_d1_w32) broadcasts_S1x10000_S640x10000 (ix2 e r)
      = BitVec.ofNat 32 r.val := by
    refine (broadcastTo_apply _ _ (ix2 e r) (ix2 (0 : Fin 1) r) fun ax => ?_).trans ?_
    · match ax with
      | ⟨0, _⟩ => rfl
      | ⟨1, _⟩ => rfl
    · exact iota_single_apply .tc S1x10000 32 1 iota_S1x10000_d1_w32 (ix2 (0 : Fin 1) r)
  show ((((IntOp.cmpi .eq (broadcastTo S640x10000 c broadcasts_S640x1_S640x10000 (ix2 e r))
      (broadcastTo S640x10000 (iota .tc S1x10000 32 [1] iota_S1x10000_d1_w32) broadcasts_S1x10000_S640x10000 (ix2 e r))).setWidth 32).toInt : ℝ) : EReal) = _
  rw [hcol, hrow, bit_toInt]
  unfold Cert.GinSpec.ind
  split
  · simp
  · simp

/-- One point's update of the aggregate at `(n, d)`: what was there, plus over the block's 640 edges the indicator of
    "destination is `n`" times feature `d` of the row the source picks. -/
theorem pay3_apply (v3 v5 : Vec Ideal S640x1 .i32) (v14 : Vec Ideal S10000x128 .bf16) (v24 : Vec Ideal S10000x128 .f32)
    (n : Fin 10000) (d : Fin 128) :
    k0_pay3 (F := Ideal) v3 v5 v14 v24 (ix2 n d)
      = v24 (ix2 n d) + ∑ e : Fin 640, Cert.GinSpec.ind (v5 (ix2 e (0 : Fin 1))) n.val * Cert.GinSpec.pick v14 (v3 (ix2 e (0 : Fin 1))) d := by
  unfold k0_pay3
  rw [shapeCast_self, shapeCast_self v3, shapeCast_self v5, addf_apply]
  congr 1
  -- the scatter: a product over the block's edges, the left factor transposed
  refine (Cert.LibMatProdT.matmul_zero_apply (φ₁ := .bf16) (φ₂ := .bf16) _ rfl none _ _ n d).trans ?_
  refine Finset.sum_congr rfl fun e _ => ?_
  rw [ind_entry v5 e n, truncf_apply]
  congr 1
  -- the pick: a product over the table's rows
  refine (Cert.LibMatProd.matmul_zero_apply (φ₁ := .bf16) (φ₂ := .bf16) _ rfl none _ v14 e d).trans ?_
  unfold Cert.GinSpec.pick
  refine Finset.sum_congr rfl fun r _ => ?_
  rw [ind_entry v3 e r]

/-- The last point's output at `(n, o)`: the row of `x + aggregate` against column `o` of the staged weights, plus the bias. -/
theorem pay4_apply (v32 v33 : Vec Ideal S10000x128 .f32) (v35 : Vec Ideal S128x128 .f32) (v38 : Vec Ideal S128 .f32)
    (n : Fin 10000) (o : Fin 128) :
    k0_pay4 (F := Ideal) v32 v33 v35 v38 (ix2 n o)
      = (∑ k : Fin 128, (v32 (ix2 n k) + v33 (ix2 n k)) * v35 (ix2 k o)) + v38 (ix1 o) := by
  unfold k0_pay4
  rw [shapeCast_self v35, addf_apply]
  congr 1
  · -- the product over the 128 input features
    refine (Cert.LibMatProd.matmul_zero_apply (φ₁ := .f32) (φ₂ := .f32) _ rfl (some .fp32) _ v35 n o).trans ?_
    refine Finset.sum_congr rfl fun k _ => ?_
    rw [addf_apply]
  · -- the bias: entry `o` of the vector, viewed as one row and repeated down the rows
    refine (broadcastTo_apply _ _ (ix2 n o) (ix2 (0 : Fin 1) o) fun ax => ?_).trans ?_
    · match ax with
      | ⟨0, _⟩ => rfl
      | ⟨1, _⟩ => rfl
    · refine shapeCast_apply v38 _ (ix2 (0 : Fin 1) o) (ix1 o) ?_
      rw [Shape.rowMajor_val_two, Shape.rowMajor_val_one]
      show o.val = 0 * 128 + o.val
      omega

end Cert.KernelIdeal.Pay

end
-- ==== Proof.Acc.lean ====
/-
  The aggregate buffer across the grid: after point `n` it holds the contributions of blocks `0 … n` added up, and the
  narrow buffer holds the feature table from the first point on.

  By induction on the point. The first point clears the buffer and adds block 0 over the table it has just copied
  (`0 + c₀ = c₀`); every later point finds the running sum and the table, and adds its own block's contribution
  (`∑_{s ≤ n} c_s + c_{n+1} = ∑_{s ≤ n+1} c_s`). A block's contribution is read off the body's stored value: the rows of
  its two edge blocks are edges `640·t + e`, and the narrow table is the table (the format change is the identity on
  the extended reals).
-/
import proofs.«402181_j2834678415936_2_alg».proof.Proof.Gen.KernelIdeal.Frame
import proofs.«402181_j2834678415936_2_alg».proof.Proof.Steps
import proofs.«402181_j2834678415936_2_alg».proof.Proof.Blocks
import proofs.«402181_j2834678415936_2_alg».proof.Proof.KernelPay
import proofs.«402181_j2834678415936_2_alg».proof.Proof.Spec
import Idealize.ShloMosaic.Lib.ValueIdx

set_option maxRecDepth 16384

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.KernelIdeal.Steps

variable (m : (ℓ : Loc nD τ sig) → Buf (Elt Ideal) ℓ)

/-! ## One point's update, as a formula -/

/-- Over the table, a point's stored aggregate is what it found plus its block's contribution. -/
theorem update_eq (c : Dev nD) (t : Fin cfg0.N) (acc : Vec Ideal S10000x128 .f32) (xs : Vec Ideal S10000x128 .bf16)
    (hxs : xs = xA m c) :
    k0_pay3 (sblk m c t) (dblk m c t) xs acc
      = fun i => acc i + Cert.GinSpec.blockSum (xA m c) (srcA m c) (dstA m c) t.val (i 0) (i 1) := by
  subst hxs
  funext i
  obtain ⟨n, d, rfl⟩ : ∃ (n : Fin 10000) (d : Fin 128), i = ix2 n d := ⟨i 0, i 1, eq_ix2 i⟩
  refine (Cert.KernelIdeal.Pay.pay3_apply (sblk m c t) (dblk m c t) (xA m c) acc n d).trans ?_
  show acc (ix2 n d) + _ = acc (ix2 n d) + Cert.GinSpec.blockSum (xA m c) (srcA m c) (dstA m c) t.val n d
  unfold Cert.GinSpec.blockSum
  congr 1
  refine Finset.sum_congr rfl fun e _ => ?_
  have e1 : dblk m c t (ix2 e (0 : Fin 1)) = Cert.GinSpec.edgeAt (dstA m c) (640 * t.val + e.val) :=
    Cert.KernelIdeal.Blocks.blk_dst m c t e
  have e2 : sblk m c t (ix2 e (0 : Fin 1)) = Cert.GinSpec.edgeAt (srcA m c) (640 * t.val + e.val) :=
    Cert.KernelIdeal.Blocks.blk_src m c t e
  rw [e1, e2]

/-- The narrow copy of the table's block is the table. -/
theorem narrow_eq (c : Dev nD) (t : Fin cfg0.N) : k0_pay2 (xblk m c t) = xA m c := by
  funext i
  rw [Cert.KernelIdeal.Pay.pay2_apply]
  exact congrFun (Cert.KernelIdeal.Blocks.blk_x m c t) i

/-! ## The induction -/

/-- The contributions of blocks `0 … n`, added up. -/
def running (c : Dev nD) (n : ℕ) : Vec Ideal S10000x128 .f32 :=
  fun i => ∑ s ∈ Finset.range (n + 1), Cert.GinSpec.blockSum (xA m c) (srcA m c) (dstA m c) s (i 0) (i 1)

/-- After point `n` the aggregate buffer holds the running sum and the narrow buffer the table. -/
theorem carried (c : Dev nD) : ∀ (n : ℕ) (hn : n < cfg0.N),
    (outsAt0 m c n hn).2.1 = running m c n ∧ (outsAt0 m c n hn).2.2 = xA m c
  | 0, hn => by
    obtain ⟨h1, h2⟩ := at_first m c ⟨0, hn⟩ (Nat.zero_mod _) (show ¬(0 : ℕ) % 1000 = 999 by decide)
    refine ⟨h1.trans ?_, h2.trans (narrow_eq m c _)⟩
    rw [update_eq m c ⟨0, hn⟩ (k0_pay1 (F := Ideal)) _ (narrow_eq m c _)]
    funext i
    unfold running
    rw [Cert.KernelIdeal.Pay.pay1_apply, zero_add, Finset.sum_range_one]
  | n + 1, hn => by
    have hN : cfg0.N = 1000 := N_0
    obtain ⟨ih1, ih2⟩ := carried c n (Nat.lt_of_succ_lt hn)
    have h0 : ¬(⟨n + 1, hn⟩ : Fin cfg0.N).val % 1000 = 0 := by dsimp only; omega
    have step : k0_pay3 (sblk m c ⟨n + 1, hn⟩) (dblk m c ⟨n + 1, hn⟩) (outsAt0 m c n (Nat.lt_of_succ_lt hn)).2.2
        (outsAt0 m c n (Nat.lt_of_succ_lt hn)).2.1 = running m c (n + 1) := by
      rw [update_eq m c ⟨n + 1, hn⟩ _ _ ih2, ih1]
      funext i
      unfold running
      rw [Finset.sum_range_succ _ (n + 1)]
    by_cases h1 : (⟨n + 1, hn⟩ : Fin cfg0.N).val % 1000 = 999
    · obtain ⟨-, a1, a2⟩ := at_last m c ⟨n + 1, hn⟩ h0 h1
      exact ⟨a1.trans step, a2.trans ih2⟩
    · obtain ⟨a1, a2⟩ := at_mid m c ⟨n + 1, hn⟩ h0 h1
      exact ⟨a1.trans step, a2.trans ih2⟩

/-! ## The output block -/

/-- What a last point (one with `t % 1000 = 999`) stores in the output block: at `(n, o)`, the row of `x` plus the
    running sum up to and including this point, against the weights' row `o`, plus the bias. -/
theorem out_at (c : Dev nD) (t : Fin cfg0.N) (h0 : ¬t.val % 1000 = 0) (h1 : t.val % 1000 = 999) (n : Fin 10000) (o : Fin 128) :
    (outsAt0 m c t.val t.isLt).1 (ix2 n o)
      = (∑ k : Fin 128, (xA m c (ix2 n k) + running m c t.val (ix2 n k)) * wA m c (ix2 o k)) + bA m c (ix1 o) := by
  obtain ⟨a0, -, -⟩ := at_last m c t h0 h1
  have hpos : 0 < t.val := Nat.pos_of_ne_zero fun hz => h0 (by rw [hz])
  obtain ⟨ih1, ih2⟩ := carried m c (t.val - 1) (Nat.lt_of_le_of_lt (Nat.sub_le _ _) t.isLt)
  have step : k0_pay3 (sblk m c t) (dblk m c t) (outsAt0 m c (t.val - 1) (Nat.lt_of_le_of_lt (Nat.sub_le _ _) t.isLt)).2.2
      (outsAt0 m c (t.val - 1) (Nat.lt_of_le_of_lt (Nat.sub_le _ _) t.isLt)).2.1 = running m c t.val := by
    rw [update_eq m c t _ _ ih2, ih1]
    funext i
    unfold running
    rw [Nat.sub_add_cancel hpos, Finset.sum_range_succ _ t.val]
  rw [a0, step]
  refine (Cert.KernelIdeal.Pay.pay4_apply (xblk m c t) (running m c t.val) (wblk m c t) (bblk m c t) n o).trans ?_
  congr 1
  · refine Finset.sum_congr rfl fun k _ => ?_
    have ew : wblk m c t (ix2 k o) = wA m c (ix2 o k) := Cert.KernelIdeal.Blocks.blk_w m c t k o
    have ex : xblk m c t (ix2 n k) = xA m c (ix2 n k) := congrFun (Cert.KernelIdeal.Blocks.blk_x m c t) (ix2 n k)
    rw [ew, ex]
  · exact congrFun (Cert.KernelIdeal.Blocks.blk_b m c t) (ix1 o)

end Cert.KernelIdeal.Acc

end
-- ==== Proof.SpecSum.lean ====
/-
  The block-by-block spelling of the aggregate IS the aggregate, when every source word is a row number.

  Three facts. A word is the number `n` (below 10000) exactly when it reads `n` as a signed integer, so the indicator
  against a word is the indicator of its signed reading. A sum over all rows against the indicator of a word in
  `[0, 10000)` keeps exactly the row the word names. And the 640000 edges are the 1000 blocks of 640 laid end to end
  (`e = 640·s + e'`), so a sum over the edges is the sum over the blocks of the sums inside them. Only `0·y = 0`,
  `1·y = y` and the commutative-monoid laws of the extended reals' addition are used: no finiteness.
-/
import proofs.«402181_j2834678415936_2_alg».proof.Proof.Spec
import Idealize.ShloMosaic.Lib.StableHlo.Predicate
import Mathlib.Algebra.BigOperators.Fin
import Mathlib.Logic.Equiv.Fin.Basic

noncomputable section

open scoped BigOperators

namespace Cert.GinSpec

open Idealize.ShloMosaic Idealize.ShloMosaic.ValueIdx Idealize.ShloMosaic.StableHlo.Predicate

/-- Inside the array, `edgeAt` is the entry. -/
theorem edgeAt_of_lt (v : SE.Idx → BitVec 32) (j : ℕ) (h : j < 640000) : edgeAt v j = v (ix1 ⟨j, h⟩) := dif_pos h

/-- The indicator against a small number is the indicator of the word's signed reading. -/
theorem ind_eq_toInt (w : BitVec 32) (n : ℕ) (hn : n < 10000) : ind w n = if w.toInt = (n : ℤ) then 1 else 0 := by
  unfold ind
  have h1 : (BitVec.ofNat 32 n).toInt = (n : ℤ) := toInt_ofNat_small n (by omega)
  by_cases h : w = BitVec.ofNat 32 n
  · rw [if_pos h, if_pos (by rw [h, h1])]
  · rw [if_neg h, if_neg]
    intro h2
    exact h (BitVec.eq_of_toInt_eq (by rw [h2, h1]))

/-- A word in `[0, 10000)` names the row of its signed reading. -/
theorem row_val (w : BitVec 32) (hw : 0 ≤ w.toInt ∧ w.toInt < 10000) : ((row w).val : ℤ) = w.toInt := by
  show ((min w.toInt.toNat 9999 : ℕ) : ℤ) = w.toInt
  omega

/-- The sum against the indicator keeps the row the word names. -/
theorem pick_eq_row (x : SX.Idx → EReal) (w : BitVec 32) (hw : 0 ≤ w.toInt ∧ w.toInt < 10000) (d : Fin 128) :
    pick x w d = x (ix2 (row w) d) := by
  unfold pick
  rw [Finset.sum_eq_single (row w)]
  · rw [ind_eq_toInt w _ (row w).isLt, if_pos (row_val w hw).symm, one_mul]
  · intro r _ hr
    rw [ind_eq_toInt w _ r.isLt, if_neg, zero_mul]
    intro h
    apply hr
    apply Fin.ext
    have := row_val w hw
    omega
  · intro h
    exact absurd (Finset.mem_univ _) h

/-- A sum over the 640000 edges is the sum over the 1000 blocks of the sums over each block's 640 edges. -/
theorem sum_edges_blocks (G : Fin 640000 → EReal) :
    ∑ e : Fin 640000, G e = ∑ s : Fin 1000, ∑ e' : Fin 640, G ⟨640 * s.val + e'.val, by omega⟩ := by
  rw [← Equiv.sum_comp ((finProdFinEquiv (m := 1000) (n := 640)).trans (finCongr (by norm_num))) G,
    Fintype.sum_prod_type]
  refine Finset.sum_congr rfl fun s _ => Finset.sum_congr rfl fun e' _ => ?_
  congr 1
  apply Fin.ext
  show e'.val + 640 * s.val = 640 * s.val + e'.val
  omega

/-- The blocks' contributions add up to the aggregate. -/
theorem blocks_eq_agg (x : SX.Idx → EReal) (src dst : SE.Idx → BitVec 32)
    (hsrc : ∀ e : Fin 640000, 0 ≤ (src (ix1 e)).toInt ∧ (src (ix1 e)).toInt < 10000) (n : Fin 10000) (d : Fin 128) :
    ∑ s ∈ Finset.range 1000, blockSum x src dst s n d = agg x src dst n d := by
  unfold agg
  rw [Finset.sum_range, sum_edges_blocks]
  refine Finset.sum_congr rfl fun s _ => ?_
  unfold blockSum
  refine Finset.sum_congr rfl fun e' _ => ?_
  have hj : 640 * s.val + e'.val < 640000 := by omega
  rw [edgeAt_of_lt dst _ hj, edgeAt_of_lt src _ hj, ind_eq_toInt _ _ n.isLt, pick_eq_row x _ (hsrc _) d]
  simp only [ite_mul, one_mul, zero_mul]

end Cert.GinSpec

end
-- ==== Proof.Final.lean ====
/-
  The kernel's result array: after the run it holds the layer's function of the five arguments.

  The output block never moves (block index zero) and is written back once, after the last point; that block is the
  whole array. What the last point stored there is, entry by entry, the row of `x` plus the sum of ALL 1000 blocks'
  contributions against the weights' row, plus the bias; and the blocks' contributions add up to the aggregate when
  every source word is a row number.
-/
import proofs.«402181_j2834678415936_2_alg».proof.Proof.Gen.KernelIdeal.Value
import proofs.«402181_j2834678415936_2_alg».proof.Proof.Acc
import proofs.«402181_j2834678415936_2_alg».proof.Proof.SpecSum
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Steps Cert.KernelIdeal.Acc

variable (m : (ℓ : Loc nD τ sig) → Buf (Elt Ideal) ℓ) (ρ : Dev nD → PrngReg)

/-- What the last point leaves in the output block, as contents of the result array: at `(n, o)` the row of `x` plus
    all 1000 blocks' contributions, against the weights' row `o`, plus the bias. -/
def result (c : Dev nD) : Buf (Elt Ideal) ((c : Thread nD τ).loc main_v3) :=
  fun i => (∑ k : Fin 128, (xA m c (ix2 (i 0) k) + running m c 999 (ix2 (i 0) k)) * wA m c (ix2 (i 1) k)) + bA m c (ix1 (i 1))

/-- The output block's index is zero on both axes at every point. -/
theorem idx5 : ∀ t : Fin cfg0.N, win0_5.index t 0 = 0 ∧ win0_5.index t 1 = 0 :=
  (by decide +kernel : ∀ t : Fin grid0.N, win0_5.index t 0 = 0 ∧ win0_5.index t 1 = 0)

/-- At the point that writes back (the last), the output block holds `result`. -/
theorem stored_eq (c : Dev nD) (t : Fin cfg0.N) (hf : (cfg0.win 5).flush t = true) :
    (outsAt0 m c t.val t.isLt).1 = result m c := by
  have hN : cfg0.N = 1000 := N_0
  have h1 : t.val % 1000 = 999 := (flush0_5 t).mp hf
  have h9 : t.val = 999 := by have := t.isLt; omega
  funext i
  obtain ⟨n, o, rfl⟩ : ∃ (n : Fin 10000) (o : Fin 128), i = ix2 n o := ⟨i 0, i 1, eq_ix2 i⟩
  refine (out_at m c t (by omega) h1 n o).trans ?_
  rw [h9]
  rfl

/-- The one write-back writes the whole array. -/
theorem flushed_eq (c : Dev nD) (t : Fin cfg0.N) (hf : (cfg0.win 5).flush t = true) :
    (dats m 0 c).flushed 5 t = ((cfg0.win 5).blk t).view.read (Elt Ideal) (result m c) := by
  rw [Cert.KernelIdeal.Value.flushed5, stored_eq m c t hf]
  have hz' : (fun a => win0_5.index t a * main_v3.ty.shape.size a) = fun _ => 0 := funext fun a => by
    match a with
    | ⟨0, _⟩ => show win0_5.index t 0 * 10000 = 0; rw [(idx5 t).1]
    | ⟨1, _⟩ => show win0_5.index t 1 * 128 = 0; rw [(idx5 t).2]
  exact (Memref.read_access_unit_zero (Elt Ideal) main_v3 hz' (fun a => by rw [congrFun hz' a]; simp) (result m c)).symm

/-- The last point (999). -/
abbrev tLast : Fin cfg0.N := ⟨999, by rw [show cfg0.N = 1000 from N_0]; decide⟩

/-- So the result array ends at what the last point stored. -/
theorem final (c : Dev nD) : (dats m 0 c).arrAt 5 cfg0.N = result m c :=
  (dats m 0 c).arrAt_eq_of_cover 5 (result m c) (flushed_eq m c) fun i =>
    ⟨tLast, (flush0_5 tLast).mpr (by decide), by
      show i ∈ ((View.whole main_v3).slice (win0_5.rect tLast)).set
      rw [View.set_slice_whole, Rect.mem_set_unit]
      intro a
      have h0 : (i 0 : Nat) < 10000 := (i 0).isLt
      have h1 : (i 1 : Nat) < 128 := (i 1).isLt
      match a with
      | ⟨0, _⟩ =>
        show win0_5.index tLast 0 * win0_5.size 0 ≤ (i 0 : Nat) ∧ (i 0 : Nat) < win0_5.index tLast 0 * win0_5.size 0 + win0_5.xsize (grid0.coords tLast) 0
        rw [(idx5 tLast).1, show win0_5.xsize (grid0.coords tLast) 0 = 10000 from by decide +kernel]; omega
      | ⟨1, _⟩ =>
        show win0_5.index tLast 1 * win0_5.size 1 ≤ (i 1 : Nat) ∧ (i 1 : Nat) < win0_5.index tLast 1 * win0_5.size 1 + win0_5.xsize (grid0.coords tLast) 1
        rw [(idx5 tLast).2, show win0_5.xsize (grid0.coords tLast) 1 = 128 from by decide +kernel]; omega⟩

/-- When every source word is a row number, that is the layer's function of the arguments: the blocks' contributions
    add up to the aggregate. -/
theorem result_eq_out (c : Dev nD)
    (hsrc : ∀ e : Fin 640000, 0 ≤ (srcA m c (ix1 e)).toInt ∧ (srcA m c (ix1 e)).toInt < 10000) :
    result m c = Cert.GinSpec.out (xA m c) (srcA m c) (dstA m c) (wA m c) (bA m c) := by
  funext i
  show (∑ k : Fin 128, (xA m c (ix2 (i 0) k) + running m c 999 (ix2 (i 0) k)) * wA m c (ix2 (i 1) k)) + bA m c (ix1 (i 1))
      = (∑ k : Fin 128, (xA m c (ix2 (i 0) k) + Cert.GinSpec.agg (xA m c) (srcA m c) (dstA m c) (i 0) k) * wA m c (ix2 (i 1) k))
        + bA m c (ix1 (i 1))
  refine congrArg (fun z => z + bA m c (ix1 (i 1))) (Finset.sum_congr rfl fun k _ => ?_)
  have hk : running m c 999 (ix2 (i 0) k) = Cert.GinSpec.agg (xA m c) (srcA m c) (dstA m c) (i 0) k := by
    unfold running
    exact Cert.GinSpec.blocks_eq_agg (xA m c) (srcA m c) (dstA m c) hsrc (i 0) k
  rw [hk]

/-- The kernel's run, read: the result array at the layer's function of the arguments, the arguments unchanged. -/
theorem run (hsrc : ∀ c : Dev nD, ∀ e : Fin 640000, 0 ≤ (srcA m c (ix1 e)).toInt ∧ (srcA m c (ix1 e)).toInt < 10000) :
    θ_run defs (onTc (τ := τ) (main (F := Ideal))) ⟨m, fun _ => 0, ρ⟩ fun r => ∀ c : Dev nD,
      r.2.mem ((c : Thread nD τ).loc main_v3) = Cert.GinSpec.out (xA m c) (srcA m c) (dstA m c) (wA m c) (bA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (result_eq_out m c (hsrc c))), (h c).2⟩)
    (Cert.KernelIdeal.Value.run_blocks m ρ)

end Cert.KernelIdeal.Final

end
-- ==== Proof.lean ====
/-
  A graph layer — each node's features plus the summed features of the sources of the edges that end at it, through a
  linear map — computed by a kernel that walks the 640000 edges in 1000 blocks of 640, against the plain reference
  (gather the source rows, scatter-add them by destination, add the node's row, multiply by the transposed weights, add
  the bias).

  On the extended reals both compute `out[n, o] = ∑ k, (x[n, k] + agg[n, k]) · W[o, k] + b[o]`, `agg[n, k]` the sum over
  the edges with destination `n` of `x[source, k]`. The kernel picks a source row by multiplying with an indicator
  matrix and scatters by multiplying with the transposed indicator of the destinations; indicators are `0` or `1`, and
  `0·y = 0`, `1·y = y` hold for every extended real, so no finiteness is used. The two differ only where a source word
  is not a row number: the indicator picks nothing, the reference's gather wraps a negative word and clamps. The
  precondition keeps every source word in `[0, 10000)`; the destinations are unconstrained (a destination outside
  the table is dropped by both). The narrow format of the kernel's table copy and of the gathered rows is the identity
  on the extended reals, and the kernel's accumulation order across blocks is a re-association of one finite sum.
-/
import proofs.«402181_j2834678415936_2_alg».proof.Defs
import proofs.«402181_j2834678415936_2_alg».proof.Proof.Gen.Kernel
import proofs.«402181_j2834678415936_2_alg».proof.Proof.Gen.Kernel.Skeleton
import proofs.«402181_j2834678415936_2_alg».proof.Proof.Gen.Kernel.Launch
import proofs.«402181_j2834678415936_2_alg».proof.Proof.Gen.Kernel.Points
import proofs.«402181_j2834678415936_2_alg».proof.Proof.Gen.Kernel.Frame
import proofs.«402181_j2834678415936_2_alg».proof.Proof.Gen.KernelIdeal
import proofs.«402181_j2834678415936_2_alg».proof.Proof.Gen.KernelIdeal.Skeleton
import proofs.«402181_j2834678415936_2_alg».proof.Proof.Gen.KernelIdeal.Launch
import proofs.«402181_j2834678415936_2_alg».proof.Proof.Gen.KernelIdeal.Points
import proofs.«402181_j2834678415936_2_alg».proof.Proof.Gen.KernelIdeal.Frame
import proofs.«402181_j2834678415936_2_alg».proof.Proof.Gen.KernelIdeal.Value
import proofs.«402181_j2834678415936_2_alg».proof.Proof.Gen.ReferenceIdeal
import proofs.«402181_j2834678415936_2_alg».proof.Proof.Gen.ReferenceIdeal.Run
import proofs.«402181_j2834678415936_2_alg».proof.Proof.Gen.ReferenceIdeal.Read
import proofs.«402181_j2834678415936_2_alg».proof.Proof.Gen.Pre_finite_inputs
import proofs.«402181_j2834678415936_2_alg».proof.Proof.PreRange
import proofs.«402181_j2834678415936_2_alg».proof.Proof.RefValue
import proofs.«402181_j2834678415936_2_alg».proof.Proof.Final
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both end at the layer's function of the arguments: the kernel by its block-by-block accumulation, the reference by
    its gather and scatter-add, under the precondition's bound on the source words. -/
theorem algebraic : Cert.algebraic_KernelIdeal_ReferenceIdeal := by
  intro m ρ m' ρ' hpre hagree
  have hsrc : ∀ c : Dev Cert.KernelIdeal.nD, ∀ e : Fin 640000,
      0 ≤ (Cert.KernelIdeal.Steps.srcA m c (ix1 e)).toInt ∧ (Cert.KernelIdeal.Steps.srcA m c (ix1 e)).toInt < 10000 :=
    fun c => Cert.Pre_finite_inputs.Range.src_in_range _ _ _ _ _ (hpre c)
  refine ⟨fun c => Cert.GinSpec.out (Cert.KernelIdeal.Steps.xA m c) (Cert.KernelIdeal.Steps.srcA m c)
      (Cert.KernelIdeal.Steps.dstA m c) (Cert.KernelIdeal.Steps.wA m c) (Cert.KernelIdeal.Steps.bA m c),
    Cert.KernelIdeal.Final.run m ρ hsrc, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v15_eq _ _ _ _ _).trans
    (Cert.ReferenceIdeal.RefValue.result_eq _ _ _ _ _ (hsrc c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
